-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S128x128 : Shape := ⟨2, ![128, 128]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) (main_arg3 : IVec S128x128 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S128x128 : Shape := ⟨2, ![128, 128]⟩
abbrev S128x32x128 : Shape := ⟨3, ![128, 32, 128]⟩
abbrev S4096x128 : Shape := ⟨2, ![4096, 128]⟩
abbrev S4096x128x32 : Shape := ⟨3, ![4096, 128, 32]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 11
  | .vmem => 11
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S128x128, .i32⟩
  | .hbm, ⟨4, _⟩ => ⟨S128x128, .bf16⟩
  | .hbm, ⟨5, _⟩ => ⟨S128x32x128, .bf16⟩
  | .hbm, ⟨6, _⟩ => ⟨S4096x128, .bf16⟩
  | .hbm, ⟨7, _⟩ => ⟨S4096x128x32, .bf16⟩
  | .hbm, ⟨8, _⟩ => ⟨S4096x4096, .bf16⟩
  | .hbm, ⟨9, _⟩ => ⟨S1x4096, .f32⟩
  | .hbm, ⟨10, _⟩ => ⟨S8192x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v16 : BitVec 1 := Scalar.cmpi .eq arg2 c3_i32
  let v17 : BitVec 32 := Scalar.extui v16
  let c0_i32_10 : BitVec 32 := 0#32
  let v18 : BitVec 1 := Scalar.cmpi .ne v17 c0_i32_10
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  bcast_S128x128_S128x32x128_0_2 : S128x128.BroadcastsInDim S128x32x128 (![0, 2] : Fin 2 → Fin S128x32x128.rank)
  shapeCasts_S128x32x128_S4096x128 : S128x32x128.ShapeCasts S4096x128
  bcast_S4096x128_S4096x128x32_0_1 : S4096x128.BroadcastsInDim S4096x128x32 (![0, 1] : Fin 2 → Fin S4096x128x32.rank)
  shapeCasts_S4096x128x32_S4096x4096 : S4096x128x32.ShapeCasts S4096x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .bf16 = 32 ∨ (Rect.block (s := S4096x4096) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x4096.size a
  hwx0_4 : ∀ i : grid0.Coords, EltTy.bits .f32 = 32 ∨ (Rect.block (s := S8192x4096) S1024x1024.size (cc0_transform_4 i) (hinb0_4 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S128x128 : Shape := ⟨2, ![128, 128]⟩
abbrev S128x32x128 : Shape := ⟨3, ![128, 32, 128]⟩
abbrev S4096x128 : Shape := ⟨2, ![4096, 128]⟩
abbrev S4096x128x32 : Shape := ⟨3, ![4096, 128, 32]⟩
abbrev S1x4096 : Shape := ⟨2, ![1, 4096]⟩

abbrev nBuf : Space → Nat
  | .hbm => 14
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S128x128, .i32⟩
  | .hbm, ⟨4, _⟩ => ⟨S128x128, .f32⟩
  | .hbm, ⟨5, _⟩ => ⟨S128x32x128, .f32⟩
  | .hbm, ⟨6, _⟩ => ⟨S4096x128, .f32⟩
  | .hbm, ⟨7, _⟩ => ⟨S4096x128x32, .f32⟩
  | .hbm, ⟨8, _⟩ => ⟨S4096x4096, .f32⟩
  | .hbm, ⟨9, _⟩ => ⟨S4096x4096, .f32⟩
  | .hbm, ⟨10, _⟩ => ⟨S8192x4096, .f32⟩
  | .hbm, ⟨11, _⟩ => ⟨S1x4096, .f32⟩
  | .hbm, ⟨12, _⟩ => ⟨S8192x4096, .f32⟩
  | .hbm, ⟨13, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  bcast_S128x128_S128x32x128_0_2 : S128x128.BroadcastsInDim S128x32x128 (![0, 2] : Fin 2 → Fin S128x32x128.rank)
  shapeCasts_S128x32x128_S4096x128 : S128x32x128.ShapeCasts S4096x128
  bcast_S4096x128_S4096x128x32_0_1 : S4096x128.BroadcastsInDim S4096x128x32 (![0, 1] : Fin 2 → Fin S4096x128x32.rank)
  shapeCasts_S4096x128x32_S4096x4096 : S4096x128x32.ShapeCasts S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Pieces.lean ====
/-
  What one grid point leaves behind, as values.

  The body keeps a running total in a scratch block. At a point it (i) clears the total when the point is the first of
  its run of four, (ii) adds to the total the product of the point's block of `x` with the transposed masked block of
  the weight, and (iii) at the last point of the run writes the total plus the bias row to the output block.
  Writing `step x w k acc` for "acc plus the block product" (the body's second stored value) and `zero` for the cleared
  block (its first stored value), the three kinds of point leave in the scratch

      first of a run :  step x w k zero
      middle         :  step x w k acc
      last of a run  :  step x w k acc           and in the output block   (step x w k acc) + bias row

  where `acc` is what the point before left in the scratch. Each is read off the stores the point performed: every
  store covers its whole buffer, so the last store to a buffer is its contents, and a load that follows a store to
  the same buffer reads what was stored.
-/
import proofs.«132047_j36266703847894_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- The offsets of a block that starts at the origin. -/
theorem hz : (![0, 0] : Fin 2 → Nat) = fun _ => 0 := funext fun a => by fin_cases a <;> rfl

/-- A middle point: the scratch held `xs0`, and ends holding `xs0` plus the block product. -/
theorem scratch_B (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i) (x0 : Vec F S1024x1024 .f32) (x1 : Vec F S1024x1024 .f32) (x2 : Vec F S1024x1024 .bf16) (x3 : Vec F S1x1024 .f32) (xs0 : Vec F S1024x1024 .f32) :
    sout0_B_0 c i arg3 harg3 arg4 harg4 arg5 harg5 arg6 harg6 arg7 harg7 arg8 harg8 hc0 hc1 x0 x1 x2 x3 xs0 = k0_pay2 x0 x1 x2 xs0 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  sl_unfold_words
  rw [View.canon_unit_zero hz]
  simp only [View.readAt_eq_ld, harg3.read_unread, harg4.read_unread, harg5.read_unread, harg8.read_unread,
    View.ld_unit_zero (S := S1024x1024) hz]

/-- The first point of a run: the scratch is cleared, then ends holding the cleared block plus the block product. -/
theorem scratch_A (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i) (x0 : Vec F S1024x1024 .f32) (x1 : Vec F S1024x1024 .f32) (x2 : Vec F S1024x1024 .bf16) (x3 : Vec F S1x1024 .f32) :
    sout0_A_0 c i arg3 harg3 arg4 harg4 arg5 harg5 arg6 harg6 arg7 harg7 arg8 harg8 hc0 hc1 x0 x1 x2 x3 = k0_pay2 x0 x1 x2 (k0_pay1 (F := F)) := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S1024x1024) hz]
  simp only [View.readAt_eq_ld, harg3.read_unread, harg4.read_unread, harg5.read_unread,
    View.ld_unit_zero (S := S1024x1024) hz, View.readCov_unit_zero (S := S1024x1024) _ hz]

/-- The last point of a run, in the scratch: as at a middle point. -/
theorem scratch_C (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i) (x0 : Vec F S1024x1024 .f32) (x1 : Vec F S1024x1024 .f32) (x2 : Vec F S1024x1024 .bf16) (x3 : Vec F S1x1024 .f32) (xs0 : Vec F S1024x1024 .f32) :
    sout0_C_0 c i arg3 harg3 arg4 harg4 arg5 harg5 arg6 harg6 arg7 harg7 arg8 harg8 hc0 hc1 x0 x1 x2 x3 xs0 = k0_pay2 x0 x1 x2 xs0 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero hz]
  simp only [View.readAt_eq_ld, harg3.read_unread, harg4.read_unread, harg5.read_unread, harg8.read_unread,
    View.ld_unit_zero (S := S1024x1024) hz]

/-- The last point of a run, in the output block: the new total plus the bias row. -/
theorem out_C (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i) (x0 : Vec F S1024x1024 .f32) (x1 : Vec F S1024x1024 .f32) (x2 : Vec F S1024x1024 .bf16) (x3 : Vec F S1x1024 .f32) (xs0 : Vec F S1024x1024 .f32) :
    out0_C_4 c i arg3 harg3 arg4 harg4 arg5 harg5 arg6 harg6 arg7 harg7 arg8 harg8 hc0 hc1 x0 x1 x2 x3 xs0 = k0_pay3 (k0_pay2 x0 x1 x2 xs0) x3 := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero hz]
  simp only [View.readAt_eq_ld, harg3.read_unread, harg4.read_unread, harg5.read_unread, harg6.read_unread, harg8.read_unread,
    View.ld_unit_zero (S := S1024x1024) hz, View.ld_unit_zero (S := S1x1024) hz, View.readCov_unit_zero (S := S1024x1024) _ hz]

end Cert.KernelIdeal.Pieces

end
-- ==== Proof.Payload.lean ====
/-
  THE BODY'S THREE STORED VALUES, ENTRY BY ENTRY, OVER THE EXTENDED REALS.

  With xb the point's block of x, wb its block of the weight, mb its block of the mask (each [1024, 1024]), acc the
  scratch as the point finds it and bias the point's [1, 1024] piece of the bias row:

    cleared block        (p, q)  =  0
    acc + block product  (p, q)  =  acc (p, q) + Σ_{k < 1024} xb (p, k) · (wb (q, k) · mb (q, k))
    total + bias row     (p, q)  =  total (p, q) + bias (0, q)

  The product contracts the SECOND axis of both operands (x times the transpose of the masked weight), it starts from a
  zero accumulator, and the changes of float format on the way in are the identity here.
-/
import proofs.«132047_j36266703847894_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-! ## Where the block product reads its operands -/

/-- The left operand is read at the result's row … -/
theorem lhs_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
/-- … and the contraction position; -/
theorem lhs_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
/-- the right operand at the result's COLUMN (its own row) … -/
theorem rhs_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
/-- … and the contraction position. -/
theorem rhs_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The block product into a zero accumulator at (p, q): Σ_k l (p, k) · r (q, k). -/
theorem product_apply {φ₁ φ₂ : FTy} (l : FVec Ideal S1024x1024 φ₁) (r : FVec Ideal S1024x1024 φ₂) (p q : Fin 1024) :
    matmul dot_S1024x1024_S1024x1024_S1024x1024_1_1_0_0_n_n none l r (constant S1024x1024 .f32 0x00000000#32) (ix2 p q)
      = ∑ k : Fin 1024, l (ix2 p k) * r (ix2 q k) := by
  show FloatOps.matmul dot_S1024x1024_S1024x1024_S1024x1024_1_1_0_0_n_n none l r (constant S1024x1024 .f32 0x00000000#32) (ix2 p q) = _
  rw [Ideal.matmul_constant_zero_apply, ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p q) ((contrEquiv1 dot_S1024x1024_S1024x1024_S1024x1024_1_1_0_0_n_n 1024 rfl rfl).symm k) = ix2 p k := funext fun a => Fin.ext (by
    match a with
    | ⟨0, _⟩ => exact lhs_0 _ _
    | ⟨1, _⟩ => exact (lhs_1 _ _).trans hk)
  have er : dot_S1024x1024_S1024x1024_S1024x1024_1_1_0_0_n_n.rhsIdx (ix2 p q) ((contrEquiv1 dot_S1024x1024_S1024x1024_S1024x1024_1_1_0_0_n_n 1024 rfl rfl).symm k) = ix2 q k := funext fun a => Fin.ext (by
    match a with
    | ⟨0, _⟩ => exact rhs_0 _ _
    | ⟨1, _⟩ => exact (rhs_1 _ _).trans hk)
  rw [el, er]

/-! ## The three stored values -/

/-- The cleared block is zero everywhere. -/
theorem cleared_apply (y : S1024x1024.Idx) : k0_pay1 (F := Ideal) y = 0 := by
  unfold k0_pay1
  rw [shapeCast_self]
  show Ideal.ofBits .f32 0x00000000#32 = 0
  exact Ideal.ofBits_zero_f32

/-- The scratch after the point's addition, at (p, q). -/
theorem step_apply (xb wb : Vec Ideal S1024x1024 .f32) (mb : Vec Ideal S1024x1024 .bf16) (acc : Vec Ideal S1024x1024 .f32)
    (p q : Fin 1024) :
    k0_pay2 (F := Ideal) xb wb mb acc (ix2 p q)
      = acc (ix2 p q) + ∑ k : Fin 1024, xb (ix2 p k) * (wb (ix2 q k) * mb (ix2 q k)) := by
  unfold k0_pay2
  rw [shapeCast_self, shapeCast_self, addf_apply, product_apply]
  rfl

/-- The output block at the last point of a run, at (p, q). -/
theorem biased_apply (tot : Vec Ideal S1024x1024 .f32) (bias : Vec Ideal S1x1024 .f32) (p q : Fin 1024) :
    k0_pay3 (F := Ideal) tot bias (ix2 p q) = tot (ix2 p q) + bias (ix2 (0 : Fin 1) q) := by
  unfold k0_pay3
  rw [shapeCast_self, addf_apply,
    broadcastTo_apply bias broadcasts_S1x1024_S1024x1024 (ix2 p q) (ix2 (0 : Fin 1) q) (fun a => by
      match a with
      | ⟨0, _⟩ => rfl
      | ⟨1, _⟩ => show q.val = if (1024 : Nat) = 1 then 0 else q.val; rw [if_neg (by decide)])]

end Cert.KernelIdeal.Payload

end
-- ==== Proof.LibBlockSum.lean ====
/-
  A sum over n · b rows, taken block by block.

  Let `N = n · b` and let `f` assign to each of the rows `0, …, N − 1` an element of a commutative additive monoid
  (the extended reals are one; nothing finite is asked of the values).  Cut the rows into `n` consecutive blocks of
  `b`: block `t` holds the rows `b·t, …, b·t + b − 1`.  Then

    • the sum over all rows is the sum over the blocks of each block's sum;
    • the partial sums `P m = Σ_{k < m} f k` satisfy `P 0 = 0`, `P (b·(t+1)) = P (b·t) + (block t's sum)` and
      `P (b·n) = Σ_k f k`;
    • so a running total that starts at zero and adds one block's sum at each of the steps `t = 0, …, n − 1` holds
      `P (b·t)` before step `t` and the whole sum after the last step.

  Everything is stated over `Fin N` with the equation `n · b = N` as a hypothesis, so that the rows may be counted by a
  literal (`N = 50000` with `n = 25`, `b = 2000`) without a change of index type.
-/
import Mathlib.Algebra.BigOperators.Fin
import Mathlib.Algebra.BigOperators.Group.Finset.Basic
import Mathlib.Data.Fintype.Basic
import Mathlib.Data.EReal.Basic
import Mathlib.Tactic.Ring
import Mathlib.Tactic.NormNum

namespace Cert.LibBlockSum

open scoped BigOperators

variable {M : Type*} [AddCommMonoid M] {N : ℕ}

/-! ## Partial sums over the rows below a bound -/

/-- The sum of `f` over the rows whose number is below `m`. -/
def partialSum (f : Fin N → M) (m : ℕ) : M :=
  ∑ k ∈ Finset.univ.filter (fun k : Fin N => k.val < m), f k

/-- No row lies below `0`: the empty partial sum is zero. -/
theorem partialSum_zero (f : Fin N → M) : partialSum f 0 = 0 := by
  unfold partialSum
  rw [Finset.filter_false_of_mem (fun k _ => Nat.not_lt_zero k.val), Finset.sum_empty]

/-- Raising the bound from `m` to `m + 1` adds row `m`. -/
theorem partialSum_succ (f : Fin N → M) {m : ℕ} (h : m < N) :
    partialSum f (m + 1) = partialSum f m + f ⟨m, h⟩ := by
  unfold partialSum
  have hins : Finset.univ.filter (fun k : Fin N => k.val < m + 1)
      = insert (⟨m, h⟩ : Fin N) (Finset.univ.filter (fun k : Fin N => k.val < m)) := by
    ext k
    simp only [Finset.mem_filter, Finset.mem_univ, true_and, Finset.mem_insert, Fin.ext_iff]
    omega
  have hnot : (⟨m, h⟩ : Fin N) ∉ Finset.univ.filter (fun k : Fin N => k.val < m) := by
    simp only [Finset.mem_filter, Finset.mem_univ, true_and]
    omega
  rw [hins, Finset.sum_insert hnot, add_comm]

/-- Raising the bound from `m` to `m + b` adds the `b` rows `m, …, m + b − 1`. -/
theorem partialSum_add (f : Fin N → M) (m b : ℕ) (h : m + b ≤ N) :
    partialSum f (m + b) = partialSum f m + ∑ r : Fin b, f ⟨m + r.val, lt_of_lt_of_le (by omega) h⟩ := by
  induction b with
  | zero => simp
  | succ b ih =>
    have hb : m + b ≤ N := by omega
    have hlt : m + b < N := by omega
    show partialSum f (m + b + 1) = _
    rw [partialSum_succ f hlt, ih hb, Fin.sum_univ_castSucc, add_assoc]
    rfl

/-- Once the bound has passed the last row, the partial sum is the whole sum. -/
theorem partialSum_of_le (f : Fin N → M) {m : ℕ} (h : N ≤ m) : partialSum f m = ∑ k, f k := by
  unfold partialSum
  rw [Finset.filter_true_of_mem (fun k _ => lt_of_lt_of_le k.isLt h)]

/-- The partial sum below `N` is the whole sum. -/
theorem partialSum_self (f : Fin N → M) : partialSum f N = ∑ k, f k := partialSum_of_le f le_rfl

/-! ## Blocks -/

variable {n b : ℕ}

/-- Row `r` of block `t` is a row: `b·t + r < b·(t+1) ≤ b·n = N`. -/
theorem block_lt (hN : n * b = N) {t r : ℕ} (ht : t < n) (hr : r < b) : b * t + r < N := by
  calc b * t + r < b * t + b := by omega
    _ = b * (t + 1) := by ring
    _ ≤ b * n := Nat.mul_le_mul_left b ht
    _ = N := by rw [Nat.mul_comm, hN]

/-- The first `t` blocks are rows: `b·t ≤ N` for `t ≤ n`. -/
theorem blocks_le (hN : n * b = N) {t : ℕ} (ht : t ≤ n) : b * t ≤ N := by
  calc b * t ≤ b * n := Nat.mul_le_mul_left b ht
    _ = N := by rw [Nat.mul_comm, hN]

/-- The sum of `f` over block `t`: the rows `b·t, …, b·t + b − 1`. -/
def blockSum (hN : n * b = N) (f : Fin N → M) (t : Fin n) : M :=
  ∑ r : Fin b, f ⟨b * t.val + r.val, block_lt hN t.isLt r.isLt⟩

/-- `blockSum` written out. -/
theorem blockSum_eq (hN : n * b = N) (f : Fin N → M) (t : Fin n) :
    blockSum hN f t = ∑ r : Fin b, f ⟨b * t.val + r.val, block_lt hN t.isLt r.isLt⟩ := rfl

/-- Passing from the first `t` blocks to the first `t + 1` adds block `t`'s sum. -/
theorem partialSum_block_succ (hN : n * b = N) (f : Fin N → M) (t : Fin n) :
    partialSum f (b * (t.val + 1)) = partialSum f (b * t.val) + blockSum hN f t := by
  have h : b * t.val + b ≤ N := by
    have := blocks_le hN (t := t.val + 1) t.isLt
    rwa [Nat.mul_succ] at this
  rw [show b * (t.val + 1) = b * t.val + b from Nat.mul_succ b t.val, partialSum_add f (b * t.val) b h]
  rfl

/-- The partial sum below the first `t` blocks is the sum of those blocks' sums. -/
theorem partialSum_blocks (hN : n * b = N) (f : Fin N → M) {t : ℕ} (ht : t ≤ n) :
    partialSum f (b * t) = ∑ s : Fin t, blockSum hN f ⟨s.val, lt_of_lt_of_le s.isLt ht⟩ := by
  induction t with
  | zero => rw [Nat.mul_zero, partialSum_zero, Fin.sum_univ_zero]
  | succ t ih =>
    have htn : t < n := ht
    rw [partialSum_block_succ hN f ⟨t, htn⟩, ih (Nat.le_of_lt htn), Fin.sum_univ_castSucc]
    rfl

/-- **The sum over all rows is the sum over the blocks of each block's sum.** -/
theorem sum_blocks (hN : n * b = N) (f : Fin N → M) : ∑ k, f k = ∑ t : Fin n, blockSum hN f t := by
  rw [← partialSum_of_le f (le_of_eq (by rw [Nat.mul_comm, hN] : N = b * n)), partialSum_blocks hN f le_rfl]

/-- The same with each block's sum written out:
    `Σ_k f k = Σ_{t < n} Σ_{r < b} f (b·t + r)`. -/
theorem sum_blocks' (hN : n * b = N) (f : Fin N → M) :
    ∑ k, f k = ∑ t : Fin n, ∑ r : Fin b, f ⟨b * t.val + r.val, block_lt hN t.isLt r.isLt⟩ :=
  sum_blocks hN f

/-! ## The running total, step by step -/

/-- The running total after `t` steps: zero at the start, and step `t` adds block `t`'s sum (a step past the last block
    adds nothing). -/
def blockAcc (hN : n * b = N) (f : Fin N → M) : ℕ → M
  | 0 => 0
  | t + 1 => blockAcc hN f t + (if h : t < n then blockSum hN f ⟨t, h⟩ else 0)

/-- Before the first step the running total is zero. -/
@[simp] theorem blockAcc_zero (hN : n * b = N) (f : Fin N → M) : blockAcc hN f 0 = 0 := rfl

/-- Step `t` adds block `t`'s sum. -/
theorem blockAcc_succ (hN : n * b = N) (f : Fin N → M) {t : ℕ} (h : t < n) :
    blockAcc hN f (t + 1) = blockAcc hN f t + blockSum hN f ⟨t, h⟩ := by
  show blockAcc hN f t + (if h : t < n then blockSum hN f ⟨t, h⟩ else 0) = _
  rw [dif_pos h]

/-- Step `t`, with the block's sum written out. -/
theorem blockAcc_succ' (hN : n * b = N) (f : Fin N → M) {t : ℕ} (h : t < n) :
    blockAcc hN f (t + 1)
      = blockAcc hN f t + ∑ r : Fin b, f ⟨b * t + r.val, block_lt hN h r.isLt⟩ :=
  blockAcc_succ hN f h

/-- After `t ≤ n` steps the running total is the partial sum over the rows below `b·t`. -/
theorem blockAcc_eq_partialSum (hN : n * b = N) (f : Fin N → M) {t : ℕ} (ht : t ≤ n) :
    blockAcc hN f t = partialSum f (b * t) := by
  induction t with
  | zero => rw [Nat.mul_zero, partialSum_zero, blockAcc_zero]
  | succ t ih =>
    have htn : t < n := ht
    rw [blockAcc_succ hN f htn, ih (Nat.le_of_lt htn), partialSum_block_succ hN f ⟨t, htn⟩]

/-- After `t ≤ n` steps the running total is the sum over the rows `k` with `k < b·t`, as a filtered sum. -/
theorem blockAcc_eq_filter (hN : n * b = N) (f : Fin N → M) {t : ℕ} (ht : t ≤ n) :
    blockAcc hN f t = ∑ k ∈ Finset.univ.filter (fun k : Fin N => k.val < b * t), f k :=
  blockAcc_eq_partialSum hN f ht

/-- **After the last step the running total is the sum over all rows.** -/
theorem blockAcc_last (hN : n * b = N) (f : Fin N → M) : blockAcc hN f n = ∑ k, f k := by
  rw [blockAcc_eq_partialSum hN f le_rfl]
  exact partialSum_of_le f (le_of_eq (by rw [Nat.mul_comm, hN]))

/-! ## 50000 rows in 25 blocks of 2000 -/

/-- `25 · 2000 = 50000`. -/
theorem rows_50000 : 25 * 2000 = 50000 := by norm_num

/-- Row `r` of block `t` among 50000 rows in 25 blocks of 2000. -/
theorem block_lt_50000 {t r : ℕ} (ht : t < 25) (hr : r < 2000) : 2000 * t + r < 50000 := by omega

/-- The sum over 50000 rows is the sum over the 25 blocks of the sums over each block's 2000 rows. -/
theorem sum_blocks_50000 (f : Fin 50000 → M) :
    ∑ k, f k = ∑ t : Fin 25, ∑ r : Fin 2000, f ⟨2000 * t.val + r.val, block_lt_50000 t.isLt r.isLt⟩ :=
  sum_blocks' rows_50000 f

/-- The running total over 50000 rows in 25 blocks of 2000. -/
def acc50000 (f : Fin 50000 → M) (t : ℕ) : M := blockAcc rows_50000 f t

/-- It starts at zero. -/
@[simp] theorem acc50000_zero (f : Fin 50000 → M) : acc50000 f 0 = 0 := rfl

/-- Step `t < 25` adds the sum over the rows `2000·t, …, 2000·t + 1999`. -/
theorem acc50000_succ (f : Fin 50000 → M) {t : ℕ} (h : t < 25) :
    acc50000 f (t + 1) = acc50000 f t + ∑ r : Fin 2000, f ⟨2000 * t + r.val, block_lt_50000 h r.isLt⟩ :=
  blockAcc_succ' rows_50000 f h

/-- After `t ≤ 25` steps it is the sum over the rows below `2000·t`. -/
theorem acc50000_eq_filter (f : Fin 50000 → M) {t : ℕ} (ht : t ≤ 25) :
    acc50000 f t = ∑ k ∈ Finset.univ.filter (fun k : Fin 50000 => k.val < 2000 * t), f k :=
  blockAcc_eq_filter rows_50000 f ht

/-- After the 25th step it is the sum over all 50000 rows. -/
theorem acc50000_last (f : Fin 50000 → M) : acc50000 f 25 = ∑ k, f k :=
  blockAcc_last rows_50000 f

/-- The extended reals are such a monoid: the statements above hold of sums of extended reals as they stand. -/
example (f : Fin 50000 → EReal) : acc50000 f 25 = ∑ k, f k := acc50000_last f

end Cert.LibBlockSum
-- ==== Proof.Spec.lean ====
/-
  THE RESULT, AS ONE FUNCTION OF THE ARGUMENTS.

  The layer is  y = x · (W ∘ M)ᵀ + b :  entry (n, o) of the result is

      y[n, o]  =  Σ_{k < 4096}  x[n, k] · (W[o, k] · M[o, k])   +   b[o],

  over the extended reals, where x is [8192, 4096], the weight W and the (already expanded) mask M are [4096, 4096]
  and the bias b has 4096 entries.  `term` is one product of that sum, `result` the whole entry.

  The kernel does not form the sum at once.  It cuts the 4096 positions k into 4 consecutive groups of 1024 and keeps a
  running total: zero, then group 0's sum added, then group 1's, … (`total`).  Addition of extended reals is
  commutative and associative (no finiteness is needed for that), so after the fourth group the running total is the
  whole sum (`total_four`).
-/
import Idealize.ShloMosaic.PureOps.Ideal
import Idealize.ShloMosaic.Lib.ValueIdx
import proofs.«132047_j36266703847894_1_alg».proof.Proof.LibBlockSum

noncomputable section

open scoped BigOperators

namespace Cert.MaskedLinear

open Idealize.ShloMosaic Idealize.ShloMosaic.ValueIdx Cert.LibBlockSum

/-- 4 groups of 1024 positions are the 4096 positions. -/
theorem groups : 4 * 1024 = 4096 := by norm_num

/-- Position `kk` of group `r`. -/
def pos (r : ℕ) (hr : r < 4) (kk : Fin 1024) : Fin 4096 := ⟨1024 * r + kk.val, block_lt groups hr kk.isLt⟩

/-- Row `p` of the `i`-th block of 1024 rows of `x`. -/
def rowOf (i : ℕ) (hi : i < 8) (p : Fin 1024) : Fin 8192 := ⟨1024 * i + p.val, by have := p.isLt; omega⟩

/-- Row `q` of the `j`-th block of 1024 rows of the weight: output feature `1024 j + q`. -/
def featOf (j : ℕ) (hj : j < 4) (q : Fin 1024) : Fin 4096 := ⟨1024 * j + q.val, by have := q.isLt; omega⟩

variable (x : (⟨2, ![8192, 4096]⟩ : Shape).Idx → EReal) (w mk : (⟨2, ![4096, 4096]⟩ : Shape).Idx → EReal)
  (b : (⟨1, ![4096]⟩ : Shape).Idx → EReal)

/-- One product of the sum for entry (n, o): x[n, k] · (W[o, k] · M[o, k]). -/
def term (n : Fin 8192) (o : Fin 4096) (k : Fin 4096) : EReal := x (ix2 n k) * (w (ix2 o k) * mk (ix2 o k))

/-- The result: entry (n, o) is the sum of the 4096 products plus b[o]. -/
def result : (⟨2, ![8192, 4096]⟩ : Shape).Idx → EReal :=
  fun i => (∑ k : Fin 4096, term x w mk (i 0) (i 1) k) + b (ix1 (i 1))

/-- The running total for entry (n, o) after `r` groups. -/
def total (n : Fin 8192) (o : Fin 4096) (r : ℕ) : EReal := blockAcc groups (term x w mk n o) r

/-- Before any group the total is zero. -/
theorem total_zero (n : Fin 8192) (o : Fin 4096) : total x w mk n o 0 = 0 := rfl

/-- Group `r` adds the sum of its 1024 products. -/
theorem total_succ (n : Fin 8192) (o : Fin 4096) {r : ℕ} (hr : r < 4) :
    total x w mk n o (r + 1) = total x w mk n o r + ∑ kk : Fin 1024, term x w mk n o (pos r hr kk) :=
  blockAcc_succ' groups (term x w mk n o) hr

/-- After the four groups the total is the whole sum. -/
theorem total_four (n : Fin 8192) (o : Fin 4096) : total x w mk n o 4 = ∑ k : Fin 4096, term x w mk n o k :=
  blockAcc_last groups (term x w mk n o)

end Cert.MaskedLinear

end
-- ==== Proof.Blocks.lean ====
/-
  WHAT THE POINT'S BLOCKS ARE, IN TERMS OF THE WHOLE ARRAYS.

  The grid has 8 · 4 · 4 = 128 points; point t has coordinates (i, j, r) = (t / 16, t / 4 mod 4, t mod 4): i picks a
  block of 1024 rows of x, j a block of 1024 output features, r a group of 1024 contraction positions. At point t

    the block of x       at (p, k) is  x [1024 i + p, 1024 r + k],
    the block of W       at (q, k) is  W [1024 j + q, 1024 r + k],
    the block of M       at (q, k) is  M [1024 j + q, 1024 r + k],
    the bias piece       at (0, q) is  bias row [0, 1024 j + q],

  a block's coordinate being always (block index) · 1024 + (coordinate inside the block). The arrays are those the
  pallas_call is entered with: x and W as given; M the 128 × 128 integer mask converted to floats and each entry
  repeated over a 32 × 32 tile (two broadcasts, each followed by a reshape); the bias row the bias vector laid out as
  one row, so that bias row [0, o] is b [o].
-/
import proofs.«132047_j36266703847894_1_alg».proof.Proof.Gen.KernelIdeal.Frame
import Idealize.ShloMosaic.Lib.Pipeline.Value
import Idealize.ShloMosaic.Lib.Tactic
import Idealize.ShloMosaic.Lib.StableHlo.Run
import proofs.«132047_j36266703847894_1_alg».proof.Proof.Spec

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx Cert.MaskedLinear

variable (m : (ℓ : Loc nD τ sig) → Buf (Elt Ideal) ℓ)

/-- The block index of each window at point t, from t's coordinates (decided over the 128 points). -/
theorem idx_facts : ∀ t : Fin cfg0.N,
    win0_0.index t (0 : Fin 2) = t.val / 16 ∧ win0_0.index t (1 : Fin 2) = t.val % 4 ∧
    win0_1.index t (0 : Fin 2) = t.val / 4 % 4 ∧ win0_1.index t (1 : Fin 2) = t.val % 4 ∧
    win0_2.index t (0 : Fin 2) = t.val / 4 % 4 ∧ win0_2.index t (1 : Fin 2) = t.val % 4 ∧
    win0_3.index t (0 : Fin 2) = 0 ∧ win0_3.index t (1 : Fin 2) = t.val / 4 % 4 ∧
    win0_4.index t (0 : Fin 2) = t.val / 16 ∧ win0_4.index t (1 : Fin 2) = t.val / 4 % 4 :=
  (by decide +kernel : ∀ t : Fin grid0.N, _)

/-- The arrays as the pallas_call finds them: x, the weight, the expanded mask, the bias row. -/
abbrev xarr (c : Dev nD) : FVec Ideal S8192x4096 .f32 := V m c main_arg0
abbrev warr (c : Dev nD) : FVec Ideal S4096x4096 .f32 := V m c main_arg1
abbrev marr (c : Dev nD) : FVec Ideal S4096x4096 .bf16 := V m c main_v4
abbrev brow (c : Dev nD) : FVec Ideal S1x4096 .f32 := V m c main_v5

/-- The blocks a point is handed, at their literal types: of x, of the weight, of the mask, of the bias row. -/
abbrev xblk (c : Dev nD) (t : Fin cfg0.N) : Vec Ideal S1024x1024 .f32 := iblk m c 0 t
abbrev wblk (c : Dev nD) (t : Fin cfg0.N) : Vec Ideal S1024x1024 .f32 := iblk m c 1 t
abbrev mblk (c : Dev nD) (t : Fin cfg0.N) : Vec Ideal S1024x1024 .bf16 := iblk m c 2 t
abbrev bblk (c : Dev nD) (t : Fin cfg0.N) : Vec Ideal S1x1024 .f32 := iblk m c 3 t

/-- x's block at a point whose coordinates are (i, ·, r). -/
theorem xblk_apply (c : Dev nD) (t : Fin cfg0.N) (p k : Fin 1024) (i : ℕ) (hi : i < 8) (r : ℕ) (hr : r < 4)
    (ei : t.val / 16 = i) (er : t.val % 4 = r) :
    xblk m c t (ix2 p k) = xarr m c (ix2 (rowOf i hi p) (pos r hr k)) := by
  unfold xblk iblk
  rw [View.read_apply]
  show V m c main_arg0 (((cfg0.win 0).blk t).view.emb (ix2 p k)) = V m c main_arg0 _
  refine congrArg (V m c main_arg0) (funext fun a => Fin.ext ?_)
  match a with
  | ⟨0, _⟩ =>
    show win0_0.index t 0 * 1024 + 1 * p.val = 1024 * i + p.val
    rw [(idx_facts t).1, ei]; omega
  | ⟨1, _⟩ =>
    show win0_0.index t 1 * 1024 + 1 * k.val = 1024 * r + k.val
    rw [(idx_facts t).2.1, er]; omega

/-- The weight's block at a point whose coordinates are (·, j, r). -/
theorem wblk_apply (c : Dev nD) (t : Fin cfg0.N) (q k : Fin 1024) (j : ℕ) (hj : j < 4) (r : ℕ) (hr : r < 4)
    (ej : t.val / 4 % 4 = j) (er : t.val % 4 = r) :
    wblk m c t (ix2 q k) = warr m c (ix2 (featOf j hj q) (pos r hr k)) := by
  unfold wblk iblk
  rw [View.read_apply]
  show V m c main_arg1 (((cfg0.win 1).blk t).view.emb (ix2 q k)) = V m c main_arg1 _
  refine congrArg (V m c main_arg1) (funext fun a => Fin.ext ?_)
  match a with
  | ⟨0, _⟩ =>
    show win0_1.index t 0 * 1024 + 1 * q.val = 1024 * j + q.val
    rw [(idx_facts t).2.2.1, ej]; omega
  | ⟨1, _⟩ =>
    show win0_1.index t 1 * 1024 + 1 * k.val = 1024 * r + k.val
    rw [(idx_facts t).2.2.2.1, er]; omega

/-- The mask's block at a point whose coordinates are (·, j, r). -/
theorem mblk_apply (c : Dev nD) (t : Fin cfg0.N) (q k : Fin 1024) (j : ℕ) (hj : j < 4) (r : ℕ) (hr : r < 4)
    (ej : t.val / 4 % 4 = j) (er : t.val % 4 = r) :
    mblk m c t (ix2 q k) = marr m c (ix2 (featOf j hj q) (pos r hr k)) := by
  unfold mblk iblk
  rw [View.read_apply]
  show V m c main_v4 (((cfg0.win 2).blk t).view.emb (ix2 q k)) = V m c main_v4 _
  refine congrArg (V m c main_v4) (funext fun a => Fin.ext ?_)
  match a with
  | ⟨0, _⟩ =>
    show win0_2.index t 0 * 1024 + 1 * q.val = 1024 * j + q.val
    rw [(idx_facts t).2.2.2.2.1, ej]; omega
  | ⟨1, _⟩ =>
    show win0_2.index t 1 * 1024 + 1 * k.val = 1024 * r + k.val
    rw [(idx_facts t).2.2.2.2.2.1, er]; omega

/-- The bias piece at a point whose coordinates are (·, j, ·). -/
theorem bblk_apply (c : Dev nD) (t : Fin cfg0.N) (q : Fin 1024) (j : ℕ) (hj : j < 4) (ej : t.val / 4 % 4 = j) :
    bblk m c t (ix2 (0 : Fin 1) q) = brow m c (ix2 (0 : Fin 1) (featOf j hj q)) := by
  unfold bblk iblk
  rw [View.read_apply]
  show V m c main_v5 (((cfg0.win 3).blk t).view.emb (ix2 (0 : Fin 1) q)) = V m c main_v5 _
  refine congrArg (V m c main_v5) (funext fun a => Fin.ext ?_)
  match a with
  | ⟨0, _⟩ =>
    show win0_3.index t 0 * 1 + 1 * 0 = 0
    rw [(idx_facts t).2.2.2.2.2.2.1]
  | ⟨1, _⟩ =>
    show win0_3.index t 1 * 1024 + 1 * q.val = 1024 * j + q.val
    rw [(idx_facts t).2.2.2.2.2.2.2.1, ej]; omega

/-! ## The arrays the call is entered with -/

/-- x and the weight are the program's arguments, untouched before the call. -/
theorem xarr_eq (c : Dev nD) : xarr m c = m ((c : Thread nD τ).loc main_arg0) := V_main_arg0 m c
theorem warr_eq (c : Dev nD) : warr m c = m ((c : Thread nD τ).loc main_arg1) := V_main_arg1 m c

/-- The expanded mask, as the program builds it from the integer mask. -/
theorem marr_eq (c : Dev nD) :
    marr m c = shapeCast S4096x4096 (broadcastInDim S4096x128x32 ![0, 1] bcast_S4096x128_S4096x128x32_0_1
      (shapeCast S4096x128 (broadcastInDim S128x32x128 ![0, 2] bcast_S128x128_S128x32x128_0_2
        (sitofp (F := Ideal) .bf16 (m ((c : Thread nD τ).loc main_arg3)))) shapeCasts_S128x32x128_S4096x128))
      shapeCasts_S4096x128x32_S4096x4096 := by
  show V m c main_v4 = _
  dsimp only [Gen.V, Gen.hostOps0]
  after_results
  rfl

/-- The bias row is the bias vector laid out as one row … -/
theorem brow_eq (c : Dev nD) :
    brow m c = shapeCast S1x4096 (m ((c : Thread nD τ).loc main_arg2)) shapeCasts_S4096_S1x4096 := by
  show V m c main_v5 = _
  dsimp only [Gen.V, Gen.hostOps0]
  after_results
  rfl

/-- … so its entry (0, o) is b [o]. -/
theorem brow_apply (c : Dev nD) (o : Fin 4096) :
    brow m c (ix2 (0 : Fin 1) o) = (m ((c : Thread nD τ).loc main_arg2) : FVec Ideal S4096 .f32) (ix1 o) := by
  rw [brow_eq]
  exact shapeCast_apply _ shapeCasts_S4096_S1x4096 (ix2 (0 : Fin 1) o) (ix1 o)
    (by rw [Shape.rowMajor_val_one, Shape.rowMajor_val_two]; show o.val = 0 * 4096 + o.val; omega)

end Cert.KernelIdeal.Blocks

end
-- ==== Proof.Accum.lean ====
/-
  THE SCRATCH IS THE RUNNING TOTAL.

  Point n has coordinates (i, j, r) = (n / 16, n / 4 mod 4, n mod 4). After point n the scratch holds, at (p, q), the
  running total after r + 1 groups for entry (1024 i + p, 1024 j + q) of the result:

      Σ_{k < 1024 (r + 1)}  x [1024 i + p, k] · (W [1024 j + q, k] · M [1024 j + q, k]).

  By induction on n. Where r = 0 the point clears the scratch and adds group 0's products: 0 + (group 0) is the
  total after one group. Where r > 0 the point before has the same i and j and left the total after r groups; this
  point adds group r's products. Each group's products are the point's blocks read at the whole arrays.
-/
import proofs.«132047_j36266703847894_1_alg».proof.Proof.Gen.KernelIdeal.Frame
import Idealize.ShloMosaic.Lib.Pipeline.Value
import Idealize.ShloMosaic.Lib.Tactic
import proofs.«132047_j36266703847894_1_alg».proof.Proof.Pieces
import proofs.«132047_j36266703847894_1_alg».proof.Proof.Payload
import proofs.«132047_j36266703847894_1_alg».proof.Proof.Blocks

noncomputable section

open Idealize.ShloMosaic Idealize.ShloMosaic.TcCoe Idealize.SL.Sem
open Idealize.ShloMosaic.Pipeline (Dat)

open scoped BigOperators

namespace Cert.KernelIdeal.Accum

open Cert.KernelIdeal Cert.KernelIdeal.Gen Idealize.ShloMosaic.ValueIdx Cert.MaskedLinear
open Cert.KernelIdeal.Pieces Cert.KernelIdeal.Payload Cert.KernelIdeal.Blocks

variable (m : (ℓ : Loc nD τ sig) → Buf (Elt Ideal) ℓ)

/-- The products of group r for entry (1024 i + p, 1024 j + q), from the blocks of a point with coordinates (i, j, r). -/
theorem group_sum (c : Dev nD) (t : Fin cfg0.N) (i : ℕ) (hi : i < 8) (j : ℕ) (hj : j < 4) (r : ℕ) (hr : r < 4)
    (ei : t.val / 16 = i) (ej : t.val / 4 % 4 = j) (er : t.val % 4 = r) (p q : Fin 1024) :
    (∑ k : Fin 1024, xblk m c t (ix2 p k) * (wblk m c t (ix2 q k) * mblk m c t (ix2 q k)))
      = ∑ kk : Fin 1024, term (xarr m c) (warr m c) (marr m c) (rowOf i hi p) (featOf j hj q) (pos r hr kk) := by
  refine Finset.sum_congr rfl fun k _ => ?_
  rw [xblk_apply m c t p k i hi r hr ei er, wblk_apply m c t q k j hj r hr ej er, mblk_apply m c t q k j hj r hr ej er]
  rfl

/-- After point n the scratch is the running total after (n mod 4) + 1 groups. -/
theorem scratch_after (c : Dev nD) : ∀ (n : ℕ) (hn : n < cfg0.N) (i : ℕ) (hi : i < 8) (j : ℕ) (hj : j < 4)
    (ei : n / 16 = i) (ej : n / 4 % 4 = j) (p q : Fin 1024),
    ((outsAt0 m c n hn).2 : Vec Ideal S1024x1024 .f32) (ix2 p q)
      = total (xarr m c) (warr m c) (marr m c) (rowOf i hi p) (featOf j hj q) (n % 4 + 1)
  | 0, hn, i, hi, j, hj, ei, ej, p, q => by
    have h0 : (⟨0, hn⟩ : Fin cfg0.N).val % 4 = 0 := rfl
    have h1 : ¬(⟨0, hn⟩ : Fin cfg0.N).val % 4 = 3 := (by decide : ¬(0 % 4 = 3))
    rw [outsAt0_A m c ⟨0, hn⟩ h0 h1]
    dsimp only
    refine (congrFun (scratch_A (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr h0) (fun h => h1 ((hcond0_1 ⟨0, hn⟩).mp h)) (iblk m c 0 ⟨0, hn⟩) (iblk m c 1 ⟨0, hn⟩) (iblk m c 2 ⟨0, hn⟩) (iblk m c 3 ⟨0, hn⟩)) (ix2 p q)).trans ?_
    rw [step_apply, cleared_apply, group_sum m c ⟨0, hn⟩ i hi j hj 0 (by decide) ei ej rfl p q]
    show _ = total _ _ _ _ _ (0 + 1)
    rw [total_succ _ _ _ _ _ (by decide : 0 < 4), total_zero]
  | n + 1, hn, i, hi, j, hj, ei, ej, p, q => by
    have hN : n + 1 < 128 := lt_of_lt_of_eq hn (show cfg0.N = 128 from N_0)
    by_cases h0 : (n + 1) % 4 = 0
    · have h0' : (⟨n + 1, hn⟩ : Fin cfg0.N).val % 4 = 0 := h0
      have h1 : ¬(⟨n + 1, hn⟩ : Fin cfg0.N).val % 4 = 3 := by show ¬(n + 1) % 4 = 3; omega
      rw [outsAt0_A m c ⟨n + 1, hn⟩ h0' h1]
      dsimp only
      refine (congrFun (scratch_A (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0') (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩)) (ix2 p q)).trans ?_
      rw [step_apply, cleared_apply, group_sum m c ⟨n + 1, hn⟩ i hi j hj 0 (by decide) ei ej h0 p q, h0]
      show _ = total _ _ _ _ _ (0 + 1)
      rw [total_succ _ _ _ _ _ (by decide : 0 < 4), total_zero]
    · have h0' : ¬(⟨n + 1, hn⟩ : Fin cfg0.N).val % 4 = 0 := h0
      have hr : (n + 1) % 4 < 4 := Nat.mod_lt _ (by decide)
      have ih := scratch_after c n (Nat.lt_of_succ_lt hn) i hi j hj (by omega) (by omega)
      have er : n % 4 + 1 = (n + 1) % 4 := by omega
      by_cases h1 : (n + 1) % 4 = 3
      · have h1' : (⟨n + 1, hn⟩ : Fin cfg0.N).val % 4 = 3 := h1
        rw [outsAt0_C m c ⟨n + 1, hn⟩ h0' h1']
        dsimp only
        refine (congrFun (scratch_C (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0' ((hcond0_0 ⟨n + 1, hn⟩).mp h)) ((hcond0_1 ⟨n + 1, hn⟩).mpr h1') (iblk m c 0 ⟨n + 1, hn⟩) (iblk m c 1 ⟨n + 1, hn⟩) (iblk m c 2 ⟨n + 1, hn⟩) (iblk m c 3 ⟨n + 1, hn⟩) (outsAt0 m c n (Nat.lt_of_succ_lt hn)).2) (ix2 p q)).trans ?_
        rw [step_apply, ih p q, er, group_sum m c ⟨n + 1, hn⟩ i hi j hj ((n + 1) % 4) hr ei ej rfl p q,
          total_succ _ _ _ _ _ hr]
      · have h1' : ¬(⟨n + 1, hn⟩ : Fin cfg0.N).val % 4 = 3 := h1
        rw [outsAt0_B m c ⟨n + 1, hn⟩ h0' h1']
        dsimp only
        refine (congrFun (scratch_B (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0' ((hcond0_0 ⟨n + 1, hn⟩).mp h)) (fun h => h1' ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 m c n (Nat.lt_of_succ_lt hn)).2) (ix2 p q)).trans ?_
        rw [step_apply, ih p q, er, group_sum m c ⟨n + 1, hn⟩ i hi j hj ((n + 1) % 4) hr ei ej rfl p q,
          total_succ _ _ _ _ _ hr]

end Cert.KernelIdeal.Accum

end
-- ==== Proof.Final.lean ====
/-
  THE RESULT ARRAY AFTER THE RUN.

  The output block (i, j) is written back once, at the last point of its run of four, (i, j, 3). There the scratch held
  the total after three groups, the point adds the fourth and stores the total plus the bias piece: entry (p, q) of
  what is written back is

      Σ_{k < 4096} x [1024 i + p, k] · (W [1024 j + q, k] · M [1024 j + q, k])  +  b [1024 j + q],

  which is entry (1024 i + p, 1024 j + q) of `result`. The 8 · 4 blocks tile the [8192, 4096] array (entry (n, o) lies in
  block (n / 1024, o / 1024)), so after the run the array is `result` of the arrays the call was entered with.
-/
import proofs.«132047_j36266703847894_1_alg».proof.Proof.Gen.KernelIdeal.Frame
import Idealize.ShloMosaic.Lib.Pipeline.Value
import Idealize.ShloMosaic.Lib.Tactic
import proofs.«132047_j36266703847894_1_alg».proof.Proof.Gen.KernelIdeal.Value
import proofs.«132047_j36266703847894_1_alg».proof.Proof.Accum

noncomputable section

open Idealize.ShloMosaic Idealize.ShloMosaic.TcCoe Idealize.SL.Sem
open Idealize.ShloMosaic.Pipeline (Dat)

open scoped BigOperators

namespace Cert.KernelIdeal.Final

open Cert.KernelIdeal Cert.KernelIdeal.Gen Idealize.ShloMosaic.ValueIdx Cert.MaskedLinear
open Cert.KernelIdeal.Pieces Cert.KernelIdeal.Payload Cert.KernelIdeal.Blocks Cert.KernelIdeal.Accum

variable (m : (ℓ : Loc nD τ sig) → Buf (Elt Ideal) ℓ) (ρ : Dev nD → PrngReg)

/-- The layer's result, of the arrays the call is entered with. -/
abbrev resultArr (c : Dev nD) : Buf (Elt Ideal) ((c : Thread nD τ).loc main_v6) :=
  result (xarr m c) (warr m c) (marr m c) (m ((c : Thread nD τ).loc main_arg2))

/-- What the last point of a run stores in the output block, entry by entry. -/
theorem stored_apply (c : Dev nD) (t : Fin cfg0.N) (h0 : ¬t.val % 4 = 0) (h3 : t.val % 4 = 3)
    (i : ℕ) (hi : i < 8) (j : ℕ) (hj : j < 4) (ei : t.val / 16 = i) (ej : t.val / 4 % 4 = j) (p q : Fin 1024) :
    (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h3) (iblk m c 0 t) (iblk m c 1 t) (iblk m c 2 t) (iblk m c 3 t)
        (outsAt0 m c (t.val - 1) (Nat.lt_of_le_of_lt (Nat.sub_le _ _) t.isLt)).2 : Vec Ideal S1024x1024 .f32) (ix2 p q)
      = resultArr m c (ix2 (rowOf i hi p) (featOf j hj q)) := by
  have hN : t.val < 128 := lt_of_lt_of_eq t.isLt (show cfg0.N = 128 from N_0)
  refine (congrFun (out_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h3) (iblk m c 0 t) (iblk m c 1 t) (iblk m c 2 t) (iblk m c 3 t)
    (outsAt0 m c (t.val - 1) (Nat.lt_of_le_of_lt (Nat.sub_le _ _) t.isLt)).2) (ix2 p q)).trans ?_
  have hprev := scratch_after m c (t.val - 1) (Nat.lt_of_le_of_lt (Nat.sub_le _ _) t.isLt) i hi j hj (by omega) (by omega) p q
  rw [show (t.val - 1) % 4 + 1 = 3 by omega] at hprev
  rw [biased_apply, step_apply, hprev, group_sum m c t i hi j hj 3 (by decide) ei ej h3 p q,
    ← total_succ _ _ _ _ _ (by decide : 3 < 4), total_four]
  show _ + bblk m c t (ix2 (0 : Fin 1) q) = _
  rw [bblk_apply m c t q j hj ej, brow_apply]
  rfl

/-- So what that point writes back is its block of the result. -/
theorem flushed_eq (c : Dev nD) (t : Fin cfg0.N) (hf : (cfg0.win 4).flush t = true) :
    (dats m 0 c).flushed 4 t = ((cfg0.win 4).blk t).view.read (Elt Ideal) (resultArr m c) := by
  have h3 : t.val % 4 = 3 := (flush0_4 t).mp hf
  have h0 : ¬t.val % 4 = 0 := by omega
  have hN : t.val < 128 := lt_of_lt_of_eq t.isLt (show cfg0.N = 128 from N_0)
  rw [Value.flushed4_C m c t h0 h3]
  funext y
  rw [View.read_apply]
  have hy0 : (y 0).val < 1024 := (y 0).isLt
  have hy1 : (y 1).val < 1024 := (y 1).isLt
  have hy : (y : S1024x1024.Idx) = ix2 (⟨(y 0).val, hy0⟩ : Fin 1024) (⟨(y 1).val, hy1⟩ : Fin 1024) := funext fun a => by
    match a with
    | ⟨0, _⟩ => rfl
    | ⟨1, _⟩ => rfl
  refine (congrArg (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h3) (iblk m c 0 t) (iblk m c 1 t) (iblk m c 2 t) (iblk m c 3 t)
        (outsAt0 m c (t.val - 1) (Nat.lt_of_le_of_lt (Nat.sub_le _ _) t.isLt)).2 : Vec Ideal S1024x1024 .f32) hy).trans
    ((stored_apply m c t h0 h3 (t.val / 16) (by omega) (t.val / 4 % 4) (by omega) rfl rfl ⟨(y 0).val, hy0⟩ ⟨(y 1).val, hy1⟩).trans ?_)
  show resultArr m c _ = resultArr m c (((cfg0.win 4).blk t).view.emb y)
  refine congrArg (resultArr m c) (funext fun a => Fin.ext ?_)
  match a with
  | ⟨0, _⟩ =>
    show 1024 * (t.val / 16) + (y 0).val = win0_4.index t 0 * 1024 + 1 * (y 0).val
    rw [(idx_facts t).2.2.2.2.2.2.2.2.1]; omega
  | ⟨1, _⟩ =>
    show 1024 * (t.val / 4 % 4) + (y 1).val = win0_4.index t 1 * 1024 + 1 * (y 1).val
    rw [(idx_facts t).2.2.2.2.2.2.2.2.2]; omega

/-- An entry of the array is in point t's output block iff each coordinate is in the block's range. -/
theorem mem_blk (t : Fin cfg0.N) (i : S8192x4096.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v6).slice (win0_4.rect t)).set ↔ _
  rw [View.set_slice_whole, Rect.mem_set_unit]
  exact Iff.rfl

/-- Every entry lies in the block some point writes back: entry (n, o) in that of (n / 1024, o / 1024, 3). -/
theorem covered (i : S8192x4096.Idx) :
    ∃ t : Fin cfg0.N, (cfg0.win 4).flush t = true ∧ i ∈ ((cfg0.win 4).blk t).view.set := by
  have hi0 : (i 0).val < 8192 := (i 0).isLt
  have hi1 : (i 1).val < 4096 := (i 1).isLt
  have hN : cfg0.N = 128 := N_0
  let t : Fin cfg0.N := ⟨16 * ((i 0).val / 1024) + 4 * ((i 1).val / 1024) + 3, by rw [hN]; omega⟩
  have ht : t.val = 16 * ((i 0).val / 1024) + 4 * ((i 1).val / 1024) + 3 := rfl
  refine ⟨t, (flush0_4 t).mpr (by omega), ?_⟩
  rw [mem_blk]
  intro a
  match a with
  | ⟨0, _⟩ =>
    show win0_4.index t 0 * 1024 ≤ (i 0).val ∧ (i 0).val < win0_4.index t 0 * 1024 + 1024
    rw [(idx_facts t).2.2.2.2.2.2.2.2.1]; omega
  | ⟨1, _⟩ =>
    show win0_4.index t 1 * 1024 ≤ (i 1).val ∧ (i 1).val < win0_4.index t 1 * 1024 + 1024
    rw [(idx_facts t).2.2.2.2.2.2.2.2.2]; omega

/-- The result array after the run. -/
theorem final (c : Dev nD) : (dats m 0 c).arrAt 4 cfg0.N = resultArr m c :=
  (dats m 0 c).arrAt_eq_of_cover 4 (resultArr m c) (flushed_eq m c) covered

/-- The run: the result array at `result` of the arrays the call was entered with, the arguments unchanged. -/
theorem run : θ_run defs (onTc (τ := τ) (main (F := Ideal))) ⟨m, fun _ => 0, ρ⟩ fun r => ∀ c : Dev nD,
      r.2.mem ((c : Thread nD τ).loc main_v6) = resultArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Final

end
-- ==== Proof.RefValue.lean ====
/-
  THE REFERENCE COMPUTES `result`.

  The reference multiplies the weight by the expanded mask, contracts x with it over the second axis of both
  (entry (n, o) is Σ_k x [n, k] · (W [o, k] · M [o, k])), and adds the bias broadcast down the rows (entry (n, o) gets
  b [o]). Read at one entry that is `result` of x, W, the reference's expanded mask and b.
-/
import proofs.«132047_j36266703847894_1_alg».proof.Proof.Gen.ReferenceIdeal.Read
import proofs.«132047_j36266703847894_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx
open Cert.MaskedLinear

/-- The reference's result is `result` of its arguments and its expanded mask. -/
theorem reference_eq (x0 : (⟨S8192x4096, .f32⟩ : BufTy).Contents (Elt Ideal)) (x1 : (⟨S4096x4096, .f32⟩ : BufTy).Contents (Elt Ideal))
    (x2 : (⟨S4096, .f32⟩ : BufTy).Contents (Elt Ideal)) (x3 : (⟨S128x128, .i32⟩ : BufTy).Contents (Elt Ideal)) :
    val_main_v9 (F := Ideal) x0 x1 x2 x3 = result x0 x1 (val_main_v4 (F := Ideal) x3) x2 := by
  funext i
  have el : ∀ k, lidx_main_v6 i k = ix2 (i 0) k := fun k => funext fun a => Fin.ext (by
    match a with
    | ⟨0, _⟩ => rfl
    | ⟨1, _⟩ => rfl)
  have er : ∀ k, ridx_main_v6 i k = ix2 (i 1) k := fun k => funext fun a => Fin.ext (by
    match a with
    | ⟨0, _⟩ => rfl
    | ⟨1, _⟩ => rfl)
  have eb : idx_main_v7 (idx_main_v8 i) = ix1 (i 1) := funext fun a => Fin.ext (by
    match a with
    | ⟨0, _⟩ => rfl)
  rw [val_main_v9_apply, val_main_v6_apply, val_main_v8_apply, val_main_v7_apply]
  simp only [el, er, eb, val_main_v5_apply]
  rfl

end Cert.ReferenceIdeal.RefValue

end
-- ==== Proof.lean ====
/-
  A block-sparse linear layer:  y = x · (W ∘ M)ᵀ + b,  with x : [8192, 4096], W : [4096, 4096], b : [4096] and M the
  128 × 128 integer mask with each entry repeated over a 32 × 32 tile.

  Over the extended reals both programs compute, at entry (n, o),

      Σ_{k < 4096} x [n, k] · (W [o, k] · M [o, k])  +  b [o].

  The reference forms W ∘ M, contracts x with it in one product and adds the bias. The kernel works on 1024 × 1024
  blocks over a grid of 8 · 4 · 4 points: for each output block it runs through the four groups of 1024 contraction
  positions, keeping a running total in a scratch block (cleared at the first group) and writing total + bias at the
  last. Cutting the sum into four consecutive groups and adding them in turn, starting from zero, gives the same sum
  because addition of extended reals is commutative and associative; no law that needs finite values is used, so the
  precondition is not opened. The two programs expand the mask by the same operations; one converts the integers to a
  narrower float format than the other, which over the extended reals is the same conversion, so the two expanded
  masks are one array. Changes of float format inside the kernel are the identity here.

  The kernel's idealization rewrote nothing, so its relation to the kernel is trivially true.
-/
import proofs.«132047_j36266703847894_1_alg».proof.Defs
import proofs.«132047_j36266703847894_1_alg».proof.Proof.Gen.Kernel
import proofs.«132047_j36266703847894_1_alg».proof.Proof.Gen.Kernel.Frame
import proofs.«132047_j36266703847894_1_alg».proof.Proof.Gen.KernelIdeal
import proofs.«132047_j36266703847894_1_alg».proof.Proof.Gen.KernelIdeal.Frame
import proofs.«132047_j36266703847894_1_alg».proof.Proof.Gen.KernelIdeal.Value
import proofs.«132047_j36266703847894_1_alg».proof.Proof.Gen.ReferenceIdeal
import proofs.«132047_j36266703847894_1_alg».proof.Proof.Gen.ReferenceIdeal.Run
import proofs.«132047_j36266703847894_1_alg».proof.Proof.Gen.ReferenceIdeal.Read
import proofs.«132047_j36266703847894_1_alg».proof.Proof.Gen.Pre_finite_inputs
import proofs.«132047_j36266703847894_1_alg».proof.Proof.Final
import proofs.«132047_j36266703847894_1_alg».proof.Proof.RefValue
import Idealize.ShloMosaic.Adequacy
import Idealize.ShloMosaic.Init

noncomputable section

namespace Cert.Proof

open Idealize.ShloMosaic Idealize.ShloMosaic.TcCoe Idealize.SL.Sem

/-- The kernel runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten. -/
theorem preserves : Cert.preserves_Kernel_KernelIdeal := trivial

/-- Both programs end with the result array at `result` of the same x, W, expanded mask and b. -/
theorem algebraic : Cert.algebraic_KernelIdeal_ReferenceIdeal := by
  intro m ρ m' ρ' _ hagree
  refine ⟨fun c => Cert.KernelIdeal.Final.resultArr m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.reference_eq,
    (hagree c).1, (hagree c).2.1, (hagree c).2.2.1, (hagree c).2.2.2]
  show _ = Cert.MaskedLinear.result (Cert.KernelIdeal.Blocks.xarr m c) (Cert.KernelIdeal.Blocks.warr m c)
    (Cert.KernelIdeal.Blocks.marr m c) _
  rw [Cert.KernelIdeal.Blocks.xarr_eq, Cert.KernelIdeal.Blocks.warr_eq, Cert.KernelIdeal.Blocks.marr_eq]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
